-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x272x512 : Shape := ⟨3, ![128, 272, 512]⟩
abbrev S128 : Shape := ⟨1, ![128]⟩
abbrev S8x320x272 : Shape := ⟨3, ![8, 320, 272]⟩
abbrev S_ : Shape := ⟨0, ![]⟩

class Facts : Prop where
  bcast_S_S128x272x512 : S_.BroadcastsInDim S128x272x512 (![] : Fin 0 → Fin S128x272x512.rank)
  reducesTo_S128x272x512_S_d0_1_2 : S128x272x512.ReducesTo [0, 1, 2] S_
  h_S_ : 0 < S_.numel
  bcast_S_S8x320x272 : S_.BroadcastsInDim S8x320x272 (![] : Fin 0 → Fin S8x320x272.rank)
  reducesTo_S8x320x272_S_d0_1_2 : S8x320x272.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S128x272x512 .f32) (main_arg1 : IVec S128 32) (main_arg2 : FVec F S8x320x272 .f32) : IVec S_ 1 :=
  let main_v0 : FVec F S128x272x512 .f32 := Host.absf main_arg0
  let main_cst : FVec F S_ .f32 := constant S_ .f32 0x7F800000#32
  let main_v1 : FVec F S128x272x512 .f32 := broadcastInDim S128x272x512 ![] bcast_S_S128x272x512 main_cst
  let main_v2 : IVec S128x272x512 1 := cmpf .olt main_v0 main_v1
  let main_c : IVec S_ 1 := constantI S_ 1 1#1
  let main_v3 : IVec S_ 1 := (fun x v => Host.reduce IntOp.andi x v reducesTo_S128x272x512_S_d0_1_2 h_S_) main_v2 main_c
  let main_v4 : FVec F S8x320x272 .f32 := Host.absf main_arg2
  let main_cst_0 : FVec F S_ .f32 := constant S_ .f32 0x7F800000#32
  let main_v5 : FVec F S8x320x272 .f32 := broadcastInDim S8x320x272 ![] bcast_S_S8x320x272 main_cst_0
  let main_v6 : IVec S8x320x272 1 := cmpf .olt main_v4 main_v5
  let main_c_1 : IVec S_ 1 := constantI S_ 1 1#1
  let main_v7 : IVec S_ 1 := (fun x v => Host.reduce IntOp.andi x v reducesTo_S8x320x272_S_d0_1_2 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 32 := constantI S_ 32 8#32
  let main_v11 : IVec S128 32 := broadcastInDim S128 ![] bcast_S_S128 main_c_3
  let main_v12 : IVec S128 1 := cmpi .slt main_arg1 main_v11
  let main_v13 : IVec S128 1 := andi main_v10 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v8 main_v14
  main_v15
-- ==== Kernel.lean ====
abbrev S128x272x512 : Shape := ⟨3, ![128, 272, 512]⟩
abbrev S128 : Shape := ⟨1, ![128]⟩
abbrev S8x320x272 : Shape := ⟨3, ![8, 320, 272]⟩
abbrev S_ : Shape := ⟨0, ![]⟩
abbrev S128x320x512 : Shape := ⟨3, ![128, 320, 512]⟩
abbrev S8x272x512 : Shape := ⟨3, ![8, 272, 512]⟩
abbrev S8x320x512 : Shape := ⟨3, ![8, 320, 512]⟩
abbrev S1 : Shape := ⟨1, ![1]⟩
abbrev S1x272x512 : Shape := ⟨3, ![1, 272, 512]⟩
abbrev S272x512 : Shape := ⟨2, ![272, 512]⟩
abbrev S1x320x272 : Shape := ⟨3, ![1, 320, 272]⟩
abbrev S320x272 : Shape := ⟨2, ![320, 272]⟩
abbrev S320x512 : Shape := ⟨2, ![320, 512]⟩
abbrev S1x320x512 : Shape := ⟨3, ![1, 320, 512]⟩

abbrev nBuf : Space → Nat
  | .hbm => 12
  | .vmem => 5
  | .smem => 1
  | _ => 0

abbrev bufTy : (tb : Table) → Fin (tcTables nBuf tb) → BufTy
  | .hbm, ⟨0, _⟩ => ⟨S128x272x512, .f32⟩
  | .hbm, ⟨1, _⟩ => ⟨S128, .i32⟩
  | .hbm, ⟨2, _⟩ => ⟨S8x320x272, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S8x320x272, .bf16⟩
  | .hbm, ⟨11, _⟩ => ⟨S128x320x512, .f32⟩
  | .local _ .vmem, ⟨0, _⟩ => ⟨S8x272x512, .f32⟩
  | .local _ .vmem, ⟨1, _⟩ => ⟨S8x272x512, .f32⟩
  | .local _ .vmem, ⟨2, _⟩ => ⟨S8x320x272, .bf16⟩
  | .local _ .vmem, ⟨3, _⟩ => ⟨S8x320x512, .f32⟩
  | .local _ .vmem, ⟨4, _⟩ => ⟨S8x320x512, .f32⟩
  | .local _ .smem, ⟨0, _⟩ => ⟨S128, .i32⟩
  | _, _ => ⟨S128x272x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 3 → Nat :=
  let v8 : Index := Scalar.indexCast v3
  let c0_1 : Index := 0#32
  let c0_2 : Index := 0#32
  ![v8.toNat, 0, 0]

def k0_chk1 (v3 : BitVec 32) : Prop :=
  (∀ a, (k0_off2 v3) a + S1x320x272.size a ≤ S8x320x272.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x320x272.size a ≤ S8x320x272.size a := fun v3 k0_hw1 => k0_hw1

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v16 : BitVec 32 := Scalar.addi v0 c1_i32
  let v17 : Index := Scalar.indexCast v16
  ![v17.toNat]
def k0_off4 (v18 : BitVec 32) : Fin 3 → Nat :=
  let v23 : Index := Scalar.indexCast v18
  let c0_7 : Index := 0#32
  let c0_8 : Index := 0#32
  ![v23.toNat, 0, 0]

def k0_chk2 (v18 : BitVec 32) : Prop :=
  (∀ a, (k0_off4 v18) a + S1x320x272.size a ≤ S8x320x272.size a)
instance k0_chk2.dec : ∀ (v18 : BitVec 32), Decidable (k0_chk2 v18) := fun v18 => decidable_of_iff' _ (Iff.of_eq (k0_chk2.eq_1 v18))
theorem k0_off4_inb : ∀ (v18 : BitVec 32) (k0_hw2 : k0_chk2 v18), ∀ a, (k0_off4 v18) a + S1x320x272.size a ≤ S8x320x272.size a := fun v18 k0_hw2 => k0_hw2

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v31 : BitVec 32 := Scalar.addi v0 c2_i32
  let v32 : Index := Scalar.indexCast v31
  ![v32.toNat]
def k0_off6 (v33 : BitVec 32) : Fin 3 → Nat :=
  let v38 : Index := Scalar.indexCast v33
  let c0_14 : Index := 0#32
  let c0_15 : Index := 0#32
  ![v38.toNat, 0, 0]

def k0_chk3 (v33 : BitVec 32) : Prop :=
  (∀ a, (k0_off6 v33) a + S1x320x272.size a ≤ S8x320x272.size a)
instance k0_chk3.dec : ∀ (v33 : BitVec 32), Decidable (k0_chk3 v33) := fun v33 => decidable_of_iff' _ (Iff.of_eq (k0_chk3.eq_1 v33))
theorem k0_off6_inb : ∀ (v33 : BitVec 32) (k0_hw3 : k0_chk3 v33), ∀ a, (k0_off6 v33) a + S1x320x272.size a ≤ S8x320x272.size a := fun v33 k0_hw3 => k0_hw3

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v46 : BitVec 32 := Scalar.addi v0 c3_i32
  let v47 : Index := Scalar.indexCast v46
  ![v47.toNat]
def k0_off8 (v48 : BitVec 32) : Fin 3 → Nat :=
  let v53 : Index := Scalar.indexCast v48
  let c0_21 : Index := 0#32
  let c0_22 : Index := 0#32
  ![v53.toNat, 0, 0]

def k0_chk4 (v48 : BitVec 32) : Prop :=
  (∀ a, (k0_off8 v48) a + S1x320x272.size a ≤ S8x320x272.size a)
instance k0_chk4.dec : ∀ (v48 : BitVec 32), Decidable (k0_chk4 v48) := fun v48 => decidable_of_iff' _ (Iff.of_eq (k0_chk4.eq_1 v48))
theorem k0_off8_inb : ∀ (v48 : BitVec 32) (k0_hw4 : k0_chk4 v48), ∀ a, (k0_off8 v48) a + S1x320x272.size a ≤ S8x320x272.size a := fun v48 k0_hw4 => k0_hw4

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v61 : BitVec 32 := Scalar.addi v0 c4_i32
  let v62 : Index := Scalar.indexCast v61
  ![v62.toNat]
def k0_off10 (v63 : BitVec 32) : Fin 3 → Nat :=
  let v68 : Index := Scalar.indexCast v63
  let c0_28 : Index := 0#32
  let c0_29 : Index := 0#32
  ![v68.toNat, 0, 0]

def k0_chk5 (v63 : BitVec 32) : Prop :=
  (∀ a, (k0_off10 v63) a + S1x320x272.size a ≤ S8x320x272.size a)
instance k0_chk5.dec : ∀ (v63 : BitVec 32), Decidable (k0_chk5 v63) := fun v63 => decidable_of_iff' _ (Iff.of_eq (k0_chk5.eq_1 v63))
theorem k0_off10_inb : ∀ (v63 : BitVec 32) (k0_hw5 : k0_chk5 v63), ∀ a, (k0_off10 v63) a + S1x320x272.size a ≤ S8x320x272.size a := fun v63 k0_hw5 => k0_hw5

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v76 : BitVec 32 := Scalar.addi v0 c5_i32
  let v77 : Index := Scalar.indexCast v76
  ![v77.toNat]
def k0_off12 (v78 : BitVec 32) : Fin 3 → Nat :=
  let v83 : Index := Scalar.indexCast v78
  let c0_35 : Index := 0#32
  let c0_36 : Index := 0#32
  ![v83.toNat, 0, 0]

def k0_chk6 (v78 : BitVec 32) : Prop :=
  (∀ a, (k0_off12 v78) a + S1x320x272.size a ≤ S8x320x272.size a)
instance k0_chk6.dec : ∀ (v78 : BitVec 32), Decidable (k0_chk6 v78) := fun v78 => decidable_of_iff' _ (Iff.of_eq (k0_chk6.eq_1 v78))
theorem k0_off12_inb : ∀ (v78 : BitVec 32) (k0_hw6 : k0_chk6 v78), ∀ a, (k0_off12 v78) a + S1x320x272.size a ≤ S8x320x272.size a := fun v78 k0_hw6 => k0_hw6

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v91 : BitVec 32 := Scalar.addi v0 c6_i32
  let v92 : Index := Scalar.indexCast v91
  ![v92.toNat]
def k0_off14 (v93 : BitVec 32) : Fin 3 → Nat :=
  let v98 : Index := Scalar.indexCast v93
  let c0_42 : Index := 0#32
  let c0_43 : Index := 0#32
  ![v98.toNat, 0, 0]

def k0_chk7 (v93 : BitVec 32) : Prop :=
  (∀ a, (k0_off14 v93) a + S1x320x272.size a ≤ S8x320x272.size a)
instance k0_chk7.dec : ∀ (v93 : BitVec 32), Decidable (k0_chk7 v93) := fun v93 => decidable_of_iff' _ (Iff.of_eq (k0_chk7.eq_1 v93))
theorem k0_off14_inb : ∀ (v93 : BitVec 32) (k0_hw7 : k0_chk7 v93), ∀ a, (k0_off14 v93) a + S1x320x272.size a ≤ S8x320x272.size a := fun v93 k0_hw7 => k0_hw7

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v106 : BitVec 32 := Scalar.addi v0 c7_i32
  let v107 : Index := Scalar.indexCast v106
  ![v107.toNat]
def k0_off16 (v108 : BitVec 32) : Fin 3 → Nat :=
  let v113 : Index := Scalar.indexCast v108
  let c0_49 : Index := 0#32
  let c0_50 : Index := 0#32
  ![v113.toNat, 0, 0]

def k0_chk8 (v108 : BitVec 32) : Prop :=
  (∀ a, (k0_off16 v108) a + S1x320x272.size a ≤ S8x320x272.size a)
instance k0_chk8.dec : ∀ (v108 : BitVec 32), Decidable (k0_chk8 v108) := fun v108 => decidable_of_iff' _ (Iff.of_eq (k0_chk8.eq_1 v108))
theorem k0_off16_inb : ∀ (v108 : BitVec 32) (k0_hw8 : k0_chk8 v108), ∀ a, (k0_off16 v108) a + S1x320x272.size a ≤ S8x320x272.size a := fun v108 k0_hw8 => k0_hw8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x272x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x320x272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  bitsLt_bf16_f32 : FTy.bits .bf16 < FTy.bits .f32
  numel1_S1 : S1.numel = 1
  inb_S8x272x512_S1x272x512_0_0_0 : ∀ a, (![0, 0, 0] : Fin 3 → Nat) a + S1x272x512.size a ≤ S8x272x512.size a
  h_S1x272x512 : 0 < S1x272x512.numel
  shapeCasts_S1x272x512_S272x512 : S1x272x512.ShapeCasts S272x512
  h_S1x320x272 : 0 < S1x320x272.numel
  shapeCasts_S1x320x272_S320x272 : S1x320x272.ShapeCasts S320x272
  inb_S8x320x512_S1x320x512_0_0_0 : ∀ a, (![0, 0, 0] : Fin 3 → Nat) a + S1x320x512.size a ≤ S8x320x512.size a
  h_S1x320x512 : 0 < S1x320x512.numel
  shapeCasts_S1x320x512_S320x512 : S1x320x512.ShapeCasts S320x512
  shapeCasts_S320x512_S1x320x512 : S320x512.ShapeCasts S1x320x512
  inb_S8x272x512_S1x272x512_1_0_0 : ∀ a, (![1, 0, 0] : Fin 3 → Nat) a + S1x272x512.size a ≤ S8x272x512.size a
  inb_S8x320x512_S1x320x512_1_0_0 : ∀ a, (![1, 0, 0] : Fin 3 → Nat) a + S1x320x512.size a ≤ S8x320x512.size a
  inb_S8x272x512_S1x272x512_2_0_0 : ∀ a, (![2, 0, 0] : Fin 3 → Nat) a + S1x272x512.size a ≤ S8x272x512.size a
  inb_S8x320x512_S1x320x512_2_0_0 : ∀ a, (![2, 0, 0] : Fin 3 → Nat) a + S1x320x512.size a ≤ S8x320x512.size a
  inb_S8x272x512_S1x272x512_3_0_0 : ∀ a, (![3, 0, 0] : Fin 3 → Nat) a + S1x272x512.size a ≤ S8x272x512.size a
  inb_S8x320x512_S1x320x512_3_0_0 : ∀ a, (![3, 0, 0] : Fin 3 → Nat) a + S1x320x512.size a ≤ S8x320x512.size a
  inb_S8x272x512_S1x272x512_4_0_0 : ∀ a, (![4, 0, 0] : Fin 3 → Nat) a + S1x272x512.size a ≤ S8x272x512.size a
  inb_S8x320x512_S1x320x512_4_0_0 : ∀ a, (![4, 0, 0] : Fin 3 → Nat) a + S1x320x512.size a ≤ S8x320x512.size a
  inb_S8x272x512_S1x272x512_5_0_0 : ∀ a, (![5, 0, 0] : Fin 3 → Nat) a + S1x272x512.size a ≤ S8x272x512.size a
  inb_S8x320x512_S1x320x512_5_0_0 : ∀ a, (![5, 0, 0] : Fin 3 → Nat) a + S1x320x512.size a ≤ S8x320x512.size a
  inb_S8x272x512_S1x272x512_6_0_0 : ∀ a, (![6, 0, 0] : Fin 3 → Nat) a + S1x272x512.size a ≤ S8x272x512.size a
  inb_S8x320x512_S1x320x512_6_0_0 : ∀ a, (![6, 0, 0] : Fin 3 → Nat) a + S1x320x512.size a ≤ S8x320x512.size a
  inb_S8x272x512_S1x272x512_7_0_0 : ∀ a, (![7, 0, 0] : Fin 3 → Nat) a + S1x272x512.size a ≤ S8x272x512.size a
  inb_S8x320x512_S1x320x512_7_0_0 : ∀ a, (![7, 0, 0] : Fin 3 → Nat) a + S1x320x512.size a ≤ S8x320x512.size a
  dot_S320x272_S272x512_S320x512_1_0_0_1_n_n_wf : DotDims.WF S320x272 S272x512 S320x512 [1] [0] [0] [1] [] []
  hrank0 : 0 < grid0.rank
  k0_off1_inb : ∀ i : grid0.Coords, ∀ a, (k0_off1 i) a + S1.size a ≤ S128.size a
  k0_off3_inb : ∀ i : grid0.Coords, ∀ a, (k0_off3 i) a + S1.size a ≤ S128.size a
  k0_off5_inb : ∀ i : grid0.Coords, ∀ a, (k0_off5 i) a + S1.size a ≤ S128.size a
  k0_off7_inb : ∀ i : grid0.Coords, ∀ a, (k0_off7 i) a + S1.size a ≤ S128.size a
  k0_off9_inb : ∀ i : grid0.Coords, ∀ a, (k0_off9 i) a + S1.size a ≤ S128.size a
  k0_off11_inb : ∀ i : grid0.Coords, ∀ a, (k0_off11 i) a + S1.size a ≤ S128.size a
  k0_off13_inb : ∀ i : grid0.Coords, ∀ a, (k0_off13 i) a + S1.size a ≤ S128.size a
  k0_off15_inb : ∀ i : grid0.Coords, ∀ a, (k0_off15 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x272x512.size a ≤ S128x272x512.size a
  hwx0_0 : ∀ i : grid0.Coords, EltTy.bits .f32 = 32 ∨ (Rect.block (s := S128x272x512) S8x272x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x320x272.size a ≤ S8x320x272.size a
  hwx0_1 : ∀ i : grid0.Coords, EltTy.bits .bf16 = 32 ∨ (Rect.block (s := S8x320x272) S8x320x272.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x320x512.size a ≤ S128x320x512.size a
  hwx0_2 : ∀ i : grid0.Coords, EltTy.bits .f32 = 32 ∨ (Rect.block (s := S128x320x512) S8x320x512.size (cc0_transform_2 i) (hinb0_2 i)).WholeWords (EltTy.packing .f32)

variable [Facts₀]

def dot_S320x272_S272x512_S320x512_1_0_0_1_n_n : DotDims S320x272 S272x512 S320x512 where
  lhsContracting := [1]
  rhsContracting := [0]
  lhsNonContracting := [0]
  rhsNonContracting := [1]
  lhsBatch := []
  rhsBatch := []
  wf := dot_S320x272_S272x512_S320x512_1_0_0_1_n_n_wf

abbrev spec0_0 : Pipeline.WinSpec sig grid0.rank :=
  Pipeline.WinSpec.ofSpec (Memref.whole main_arg0) S8x272x512.size reads0_0 false false 2 stage0_0 sem0_0 nbuf0_0 hstage0_0

abbrev spec0_1 : Pipeline.WinSpec sig grid0.rank :=
  Pipeline.WinSpec.ofSpec (Memref.whole main_v1) S8x320x272.size reads0_1 false true 1 stage0_1 sem0_1 nbuf0_1 hstage0_1

abbrev spec0_2 : Pipeline.WinSpec sig grid0.rank :=
  Pipeline.WinSpec.ofSpec (Memref.whole main_v2) S8x320x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x272x512 : Shape := ⟨3, ![128, 272, 512]⟩
abbrev S128 : Shape := ⟨1, ![128]⟩
abbrev S8x320x272 : Shape := ⟨3, ![8, 320, 272]⟩
abbrev S_ : Shape := ⟨0, ![]⟩
abbrev S128x1 : Shape := ⟨2, ![128, 1]⟩
abbrev S128x320x272 : Shape := ⟨3, ![128, 320, 272]⟩
abbrev S128x320x512 : Shape := ⟨3, ![128, 320, 512]⟩

abbrev nBuf : Space → Nat
  | .hbm => 13
  | .vmem => 0
  | .smem => 0
  | _ => 0

abbrev bufTy : (tb : Table) → Fin (tcTables nBuf tb) → BufTy
  | .hbm, ⟨0, _⟩ => ⟨S128x272x512, .f32⟩
  | .hbm, ⟨1, _⟩ => ⟨S128, .i32⟩
  | .hbm, ⟨2, _⟩ => ⟨S8x320x272, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128x320x272, .f32⟩
  | .hbm, ⟨12, _⟩ => ⟨S128x320x512, .f32⟩
  | _, _ => ⟨S128x272x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  gather_S8x320x272_S128x1_S128x320x272_12_0_n_n_0_1_1320272_wf : GatherDims.WF S8x320x272 S128x1 S128x320x272 [1, 2] [0] [] [0] [] 1 ![1, 320, 272]
  dot_S128x320x272_S128x272x512_S128x320x512_2_1_1_2_0_0_wf : DotDims.WF S128x320x272 S128x272x512 S128x320x512 [2] [1] [1] [2] [0] [0]

variable [Facts₀]

def gather_S8x320x272_S128x1_S128x320x272_12_0_n_n_0_1_1320272 : GatherDims S8x320x272 S128x1 S128x320x272 where
  offsetDims := [1, 2]
  collapsedSliceDims := [0]
  operandBatchingDims := []
  startIndicesBatchingDims := []
  startIndexMap := [0]
  indexVectorDim := 1
  sliceSizes := ![1, 320, 272]
  wf := gather_S8x320x272_S128x1_S128x320x272_12_0_n_n_0_1_1320272_wf
def dot_S128x320x272_S128x272x512_S128x320x512_2_1_1_2_0_0 : DotDims S128x320x272 S128x272x512 S128x320x512 where
  lhsContracting := [2]
  rhsContracting := [1]
  lhsNonContracting := [1]
  rhsNonContracting := [2]
  lhsBatch := [0]
  rhsBatch := [0]
  wf := dot_S128x320x272_S128x272x512_S128x320x512_2_1_1_2_0_0_wf

class Facts : Prop extends Facts₀ where

variable [Facts]
-- ==== Proof.SubjectWord.lean ====
/-
  A subject id is a 32-bit word `w` read as a signed integer. Three readings of it meet in this certificate:

  * the kernel's host side clips it, `min 7 (max 0 w)`, before the body uses it as the row of the weight table;
  * the reference first wraps a negative id (`w + 8` when `w < 0`, NumPy's indexing rule) and then takes the
    row `min (toNat (toInt ·)) 7` (the gather's clamp into the table);
  * the body's side condition wants the clipped word, read unsigned, below 8.

  On the label range `0 ≤ w < 8` all readings are `w` itself; the clipped word is below 8 for EVERY `w`.
-/
import Idealize.ShloMosaic.PureOps
import Idealize.ShloMosaic.Lib.StableHlo.Predicate

namespace Cert.SubjectWord

open Idealize.ShloMosaic

theorem ofBool_eq_one (b : Bool) : BitVec.ofBool b = 1#1 ↔ b = true := by cases b <;> decide

/-- The signed value of a word, by cases on its top bit, as linear arithmetic can use it. -/
theorem toInt_cases (w : BitVec 32) :
    (w.toNat < 2 ^ 31 ∧ w.toInt = w.toNat) ∨ (2 ^ 31 ≤ w.toNat ∧ w.toInt = (w.toNat : Int) - 2 ^ 32) := by
  have h := w.isLt
  unfold BitVec.toInt
  split <;> omega

/-- The clipped word `min 7 (max 0 w)` is below 8 unsigned, whatever `w` is. -/
theorem clip_toNat_lt (w : BitVec 32) : (IntOp.minsi 7#32 (IntOp.maxsi 0#32 w)).toNat < 8 := by
  have h7 : (7#32 : BitVec 32).toInt = 7 := by decide
  have h0 : (0#32 : BitVec 32).toInt = 0 := by decide
  have hx : (IntOp.maxsi 0#32 w).toNat < 2 ^ 31 := by
    unfold IntOp.maxsi
    split <;> rename_i hc <;> simp only [BitVec.slt, h0, decide_eq_true_eq] at hc
    · decide
    · rcases toInt_cases w with ⟨h, _⟩ | ⟨_, h⟩ <;> omega
  unfold IntOp.minsi
  split <;> rename_i hc <;> simp only [BitVec.slt, h7, decide_eq_true_eq] at hc
  · decide
  · rcases toInt_cases (IntOp.maxsi 0#32 w) with ⟨_, h⟩ | ⟨h, _⟩ <;> omega

/-- A word in the label range, `0 ≤ w` and `w < 8` signed, is below 8 unsigned. -/
theorem toNat_lt_of_range (w : BitVec 32) (h0 : IntOp.cmpi .sge w 0#32 = 1#1) (h8 : IntOp.cmpi .slt w 8#32 = 1#1) :
    w.toNat < 8 := by
  unfold IntOp.cmpi at h0 h8
  rw [ofBool_eq_one] at h0 h8
  have e0 : (0#32 : BitVec 32).toInt = 0 := by decide
  have e8 : (8#32 : BitVec 32).toInt = 8 := by decide
  simp only [BitVec.slt, BitVec.sle, e0, e8, decide_eq_true_eq] at h0 h8
  rcases toInt_cases w with ⟨_, h⟩ | ⟨_, h⟩ <;> omega

/-- On a word below 8 the clip is the identity. -/
theorem clip_eq_self (w : BitVec 32) (hw : w.toNat < 8) : IntOp.minsi 7#32 (IntOp.maxsi 0#32 w) = w := by
  have hti : w.toInt = w.toNat := StableHlo.Predicate.toInt_eq_toNat_of_lt (by omega)
  have h7 : (7#32 : BitVec 32).toInt = 7 := by decide
  have h0 : (0#32 : BitVec 32).toInt = 0 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h7, decide_eq_true_eq] at hc
  all_goals first | rfl | (apply BitVec.eq_of_toNat_eq; simp only [BitVec.toNat_ofNat]; omega)

/-- On a word below 8 the reference's wrap of negative ids does nothing: the word is not negative. -/
theorem wrap_eq_self (w : BitVec 32) (hw : w.toNat < 8) :
    Scalar.select (IntOp.cmpi .slt w 0#32) (IntOp.addi w 8#32) w = w := by
  have hti : w.toInt = w.toNat := StableHlo.Predicate.toInt_eq_toNat_of_lt (by omega)
  have h0 : (0#32 : BitVec 32).toInt = 0 := by decide
  have hc : IntOp.cmpi .slt w 0#32 ≠ 1 := by
    unfold IntOp.cmpi
    intro h
    rw [show (1 : BitVec 1) = 1#1 from rfl, ofBool_eq_one] at h
    simp only [BitVec.slt, hti, h0, decide_eq_true_eq] at h
    omega
  unfold Scalar.select
  rw [if_neg hc]

/-- and the gather's clamp of its signed value into the table's 8 rows is its unsigned value. -/
theorem clamp_row_eq (w : BitVec 32) (hw : w.toNat < 8) : min w.toInt.toNat (8 - 1) = w.toNat := by
  have hti : w.toInt = w.toNat := StableHlo.Predicate.toInt_eq_toNat_of_lt (by omega)
  rw [hti]
  simp only [Int.toNat_natCast]
  omega

end Cert.SubjectWord
-- ==== Proof.HostSide.lean ====
/-
  What the kernel's region finds when it is entered. Before the pallas_call, @main clips the subject ids,
  `min 7 (max 0 s)`, into the table the kernel prefetches, and narrows the weights to bf16. So whatever the ids are:

  * every word of the prefetched table is below 8, which is the side condition the body assumes of each word it
    reads before it uses the word as a row of the 8-row weight table;
  * no index map reads the table, so the pipeline asks nothing of it.
-/
import proofs.«414298_j21586505630381_3_alg».proof.Proof.Gen.KernelIdeal.Frame.Runs
import proofs.«414298_j21586505630381_3_alg».proof.Proof.SubjectWord
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The prefetched table is the subject ids clipped to [0, 7]. -/
theorem tbl_eq : tbl m 0 = minsi (broadcastInDim S128 ![] bcast_S_S128 (constantI S_ 32 7#32))
    (maxsi (broadcastInDim S128 ![] bcast_S_S128 (constantI S_ 32 0#32)) (m (((0 : Dev nD) : Thread nD τ).loc main_arg1))) := by
  unfold tbl
  show V m 0 main_v0 = _
  dsimp only [V]
  simp only [hostOps0, hostOps0_1, hostOps0_2, List.flatten_cons, List.flatten_nil, List.append_nil, List.cons_append,
    List.nil_append]
  after_results
  rfl

/-- Word by word. -/
theorem tbl_apply (x : S128.Idx) :
    tbl m 0 x = IntOp.minsi 7#32 (IntOp.maxsi 0#32 (m (((0 : Dev nD) : Thread nD τ).loc main_arg1) x)) := by
  rw [tbl_eq]; rfl

/-- Every word of the table is below 8. -/
theorem tbl_lt (x : S128.Idx) : (tbl m 0 x).toNat < 8 := by
  rw [tbl_apply]; exact Cert.SubjectWord.clip_toNat_lt _

/-- The weights the region finds are the argument's, narrowed to bf16. -/
theorem weights_eq (c : Dev nD) :
    V m c main_v1 = truncf .bf16 (m ((c : Thread nD τ).loc main_arg2)) bitsLt_bf16_f32 := by
  dsimp only [V]
  simp only [hostOps0, hostOps0_1, hostOps0_2, List.flatten_cons, List.flatten_nil, List.append_nil, List.cons_append,
    List.nil_append]
  after_results

/-- A word below 8 names a [1, 320, 272] slab inside the [8, 320, 272] weight table. -/
theorem slab_inside (w : BitVec 32) (hw : w.toNat < 8) :
    ∀ a, (![(Scalar.indexCast w).toNat, 0, 0] : Fin 3 → Nat) a + S1x320x272.size a ≤ S8x320x272.size a := by
  intro a
  have e : (Scalar.indexCast w).toNat = w.toNat := rfl
  fin_cases a <;> simp [e, S1x320x272, S8x320x272] <;> omega

/-- The pipeline's side condition of the table: nothing, no index map reads it. -/
theorem ok : Ok m := trivial

/-- The side conditions the body assumes of the eight words a grid point reads: each names a slab of the table. -/
theorem hyps (hO : Ok m) : Hyps m hO := by
  have hword := tbl_lt m
  intro c t
  exact ⟨slab_inside _ (hword _), slab_inside _ (hword _), slab_inside _ (hword _), slab_inside _ (hword _),
    slab_inside _ (hword _), slab_inside _ (hword _), slab_inside _ (hword _), slab_inside _ (hword _)⟩

end Cert.KernelIdeal.HostSide

end
-- ==== Proof.HostSideKernel.lean ====
/-
  What the kernel's region finds when it is entered. Before the pallas_call, @main clips the subject ids,
  `min 7 (max 0 s)`, into the table the kernel prefetches, and narrows the weights to bf16. So whatever the ids are:

  * every word of the prefetched table is below 8, which is the side condition the body assumes of each word it
    reads before it uses the word as a row of the 8-row weight table;
  * no index map reads the table, so the pipeline asks nothing of it.
-/
import proofs.«414298_j21586505630381_3_alg».proof.Proof.Gen.Kernel.Frame.Runs
import proofs.«414298_j21586505630381_3_alg».proof.Proof.SubjectWord
import Idealize.ShloMosaic.Lib.StableHlo.Run

set_option maxRecDepth 16384

noncomputable section

namespace Cert.Kernel.HostSide

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The prefetched table is the subject ids clipped to [0, 7]. -/
theorem tbl_eq : tbl m 0 = minsi (broadcastInDim S128 ![] bcast_S_S128 (constantI S_ 32 7#32))
    (maxsi (broadcastInDim S128 ![] bcast_S_S128 (constantI S_ 32 0#32)) (m (((0 : Dev nD) : Thread nD τ).loc main_arg1))) := by
  unfold tbl
  show V m 0 main_v0 = _
  dsimp only [V]
  simp only [hostOps0, hostOps0_1, hostOps0_2, List.flatten_cons, List.flatten_nil, List.append_nil, List.cons_append,
    List.nil_append]
  after_results
  rfl

/-- Word by word. -/
theorem tbl_apply (x : S128.Idx) :
    tbl m 0 x = IntOp.minsi 7#32 (IntOp.maxsi 0#32 (m (((0 : Dev nD) : Thread nD τ).loc main_arg1) x)) := by
  rw [tbl_eq]; rfl

/-- Every word of the table is below 8. -/
theorem tbl_lt (x : S128.Idx) : (tbl m 0 x).toNat < 8 := by
  rw [tbl_apply]; exact Cert.SubjectWord.clip_toNat_lt _

/-- The weights the region finds are the argument's, narrowed to bf16. -/
theorem weights_eq (c : Dev nD) :
    V m c main_v1 = truncf .bf16 (m ((c : Thread nD τ).loc main_arg2)) bitsLt_bf16_f32 := by
  dsimp only [V]
  simp only [hostOps0, hostOps0_1, hostOps0_2, List.flatten_cons, List.flatten_nil, List.append_nil, List.cons_append,
    List.nil_append]
  after_results

/-- A word below 8 names a [1, 320, 272] slab inside the [8, 320, 272] weight table. -/
theorem slab_inside (w : BitVec 32) (hw : w.toNat < 8) :
    ∀ a, (![(Scalar.indexCast w).toNat, 0, 0] : Fin 3 → Nat) a + S1x320x272.size a ≤ S8x320x272.size a := by
  intro a
  have e : (Scalar.indexCast w).toNat = w.toNat := rfl
  fin_cases a <;> simp [e, S1x320x272, S8x320x272] <;> omega

/-- The pipeline's side condition of the table: nothing, no index map reads it. -/
theorem ok : Ok m := trivial

/-- The side conditions the body assumes of the eight words a grid point reads: each names a slab of the table. -/
theorem hyps (hO : Ok m) : Hyps m hO := by
  have hword := tbl_lt m
  intro c t
  exact ⟨slab_inside _ (hword _), slab_inside _ (hword _), slab_inside _ (hword _), slab_inside _ (hword _),
    slab_inside _ (hword _), slab_inside _ (hword _), slab_inside _ (hword _), slab_inside _ (hword _)⟩

end Cert.Kernel.HostSide

end
-- ==== Proof.RowProduct.lean ====
/-
  One sub-row of the kernel body, as arithmetic on the extended reals. The body takes a [1, 272, 512] slab `a` of the
  input block and a [1, 320, 272] slab `b` of the weight table, drops the unit axis of each, narrows `a` to bf16
  (a change of float format: the identity on extended reals), multiplies `b · a` on the matrix unit into a zero
  accumulator and puts the unit axis back. Read at (0, p, q) that is the plain sum over the 272 channels

      ∑ k, b (0, p, k) · a (0, k, q).

  All eight sub-rows of the body are this one term.
-/
import proofs.«414298_j21586505630381_3_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.RowProduct

open Cert.KernelIdeal Cert.KernelIdeal.Gen Idealize.ShloMosaic Idealize.ShloMosaic.ValueIdx

/-! The matrix product's operand indices, axis by axis: row `p` of the weights against column `q` of the input,
    the one contracted axis running over the channels. -/

theorem lhs_axis0 (i : S320x512.Idx) (q : dot_S320x272_S272x512_S320x512_1_0_0_1_n_n.contr.Idx) :
    (dot_S320x272_S272x512_S320x512_1_0_0_1_n_n.lhsIdx i q 0).val = (i 0).val := by
  unfold DotDims.lhsIdx
  rw [dif_neg (show ¬(0 : Fin S320x272.rank) ∈ dot_S320x272_S272x512_S320x512_1_0_0_1_n_n.lhsBatch by decide), dif_pos (show (0 : Fin S320x272.rank) ∈ dot_S320x272_S272x512_S320x512_1_0_0_1_n_n.lhsNonContracting by decide)]
  rfl
theorem lhs_axis1 (i : S320x512.Idx) (q : dot_S320x272_S272x512_S320x512_1_0_0_1_n_n.contr.Idx) :
    (dot_S320x272_S272x512_S320x512_1_0_0_1_n_n.lhsIdx i q 1).val = (q ⟨0, by decide⟩).val :=
  dot_S320x272_S272x512_S320x512_1_0_0_1_n_n.lhsIdx_val_of_single rfl i q
theorem rhs_axis0 (i : S320x512.Idx) (q : dot_S320x272_S272x512_S320x512_1_0_0_1_n_n.contr.Idx) :
    (dot_S320x272_S272x512_S320x512_1_0_0_1_n_n.rhsIdx i q 0).val = (q ⟨0, by decide⟩).val :=
  dot_S320x272_S272x512_S320x512_1_0_0_1_n_n.rhsIdx_val_of_single rfl i q
theorem rhs_axis1 (i : S320x512.Idx) (q : dot_S320x272_S272x512_S320x512_1_0_0_1_n_n.contr.Idx) :
    (dot_S320x272_S272x512_S320x512_1_0_0_1_n_n.rhsIdx i q 1).val = (i 1).val := by
  unfold DotDims.rhsIdx
  rw [dif_neg (show ¬(1 : Fin S272x512.rank) ∈ dot_S320x272_S272x512_S320x512_1_0_0_1_n_n.rhsBatch by decide), dif_pos (show (1 : Fin S272x512.rank) ∈ dot_S320x272_S272x512_S320x512_1_0_0_1_n_n.rhsNonContracting by decide)]
  rfl

/-- The [320, 272] × [272, 512] product into a zero accumulator, at (p, q): the sum over the channels. -/
theorem product_apply (w : FVec Ideal S320x272 .bf16) (x : FVec Ideal S272x512 .bf16) (p : Fin 320) (q : Fin 512) :
    matmul dot_S320x272_S272x512_S320x512_1_0_0_1_n_n none w x (constant S320x512 .f32 0x00000000#32) (ix2 p q)
      = ∑ k : Fin 272, w (ix2 p k) * x (ix2 k q) := by
  show FloatOps.matmul dot_S320x272_S272x512_S320x512_1_0_0_1_n_n none w x (constant S320x512 .f32 0x00000000#32) (ix2 p q) = _
  rw [Ideal.matmul_constant_zero_apply, ← Equiv.sum_comp (contrEquiv1 dot_S320x272_S272x512_S320x512_1_0_0_1_n_n 272 rfl rfl).symm]
  refine Finset.sum_congr rfl fun k _ => ?_
  have hk := contrEquiv1_symm_val dot_S320x272_S272x512_S320x512_1_0_0_1_n_n 272 rfl rfl k
  have el : dot_S320x272_S272x512_S320x512_1_0_0_1_n_n.lhsIdx (ix2 p q) ((contrEquiv1 dot_S320x272_S272x512_S320x512_1_0_0_1_n_n 272 rfl rfl).symm k) = ix2 p k := funext fun a => Fin.ext (by
    match a with
    | ⟨0, _⟩ => exact lhs_axis0 _ _
    | ⟨1, _⟩ => exact (lhs_axis1 _ _).trans hk)
  have er : dot_S320x272_S272x512_S320x512_1_0_0_1_n_n.rhsIdx (ix2 p q) ((contrEquiv1 dot_S320x272_S272x512_S320x512_1_0_0_1_n_n 272 rfl rfl).symm k) = ix2 k q := funext fun a => Fin.ext (by
    match a with
    | ⟨0, _⟩ => exact (rhs_axis0 _ _).trans hk
    | ⟨1, _⟩ => exact rhs_axis1 _ _)
  rw [el, er]

/-- One sub-row of the body at (u, p, q): the sum over the channels of the weight slab's row `p` against the input
    slab's column `q`. -/
theorem subrow_apply (a : Vec Ideal S1x272x512 .f32) (b : Vec Ideal S1x320x272 .bf16) (u : Fin 1) (p : Fin 320) (q : Fin 512) :
    k0_pay2 (F := Ideal) a b (ix3 u p q) = ∑ k : Fin 272, b (ix3 (0 : Fin 1) p k) * a (ix3 (0 : Fin 1) k q) := by
  unfold k0_pay2
  refine (shapeCast_ab_1ab_apply _ _ u p q).trans ?_
  refine (product_apply _ _ p q).trans ?_
  refine Finset.sum_congr rfl fun k _ => ?_
  rw [shapeCast_1ab_ab_apply, truncf_apply, shapeCast_1ab_ab_apply]

/-! The other seven sub-rows are the same term (the body is an unrolled loop; the fifth is printed in three parts). -/

theorem subrow1_eq : @k0_pay1 Ideal _ = @k0_pay2 Ideal _ := rfl
theorem subrow3_eq : @k0_pay3 Ideal _ = @k0_pay2 Ideal _ := rfl
theorem subrow4_eq : @k0_pay4 Ideal _ = @k0_pay2 Ideal _ := rfl
theorem subrow5_eq : @k0_pay5 Ideal _ = @k0_pay2 Ideal _ := rfl
theorem subrow9_eq : @k0_pay9 Ideal _ = @k0_pay2 Ideal _ := rfl
theorem subrow10_eq : @k0_pay10 Ideal _ = @k0_pay2 Ideal _ := rfl
theorem subrow8_eq (a : Vec Ideal S1x272x512 .f32) (b : Vec Ideal S1x320x272 .bf16) :
    k0_pay8 (F := Ideal) (k0_pay6 a) (k0_pay7 b) (constant S320x512 .f32 0#32) = k0_pay2 (F := Ideal) a b := rfl

end Cert.KernelIdeal.RowProduct

end
-- ==== Proof.BlockValue.lean ====
import proofs.«414298_j21586505630381_3_alg».proof.Proof.Gen.KernelIdeal.Frame
import proofs.«414298_j21586505630381_3_alg».proof.Proof.RowProduct
import Idealize.ShloMosaic.Lib.Pipeline.Value

set_option maxRecDepth 16384

noncomputable section

namespace Cert.KernelIdeal.BlockValue

open Cert.KernelIdeal Cert.KernelIdeal.Gen Cert.KernelIdeal.RowProduct
open Idealize.ShloMosaic Idealize.ShloMosaic.TcCoe Idealize.ShloMosaic.Tactic Idealize.ShloMosaic.ValueIdx
open Idealize.SL Idealize.SL.Sem

/-! What one grid point leaves in its [8, 320, 512] output block, on the extended reals.

The body is eight sub-rows. Sub-row `r` reads row `r` of the [8, 272, 512] input block, reads the row of the
[8, 320, 272] weight table that the `r`-th subject word of the point names, multiplies them and stores the product
as row `r` of the output block. With `rows r` the table row sub-row `r` uses, the block is ONE function of its
index (r, p, q):

    ∑ k, table (rows r, p, k) · input (r, k, q).
-/

/-- The output block as one function of the input block, the weight table and the table row of each sub-row. -/
def blockOut (x0 : Vec Ideal S8x272x512 .f32) (x1 : Vec Ideal S8x320x272 .bf16) (rows : Fin 8 → Fin 8) : S8x320x512.Idx → EReal :=
  fun y => ∑ k : Fin 272, x1 (ix3 (rows (y 0)) (y 1) k) * x0 (ix3 (y 0) k (y 2))

theorem blockOut_apply (x0 : Vec Ideal S8x272x512 .f32) (x1 : Vec Ideal S8x320x272 .bf16) (rows : Fin 8 → Fin 8)
    (r : Fin 8) (p : Fin 320) (q : Fin 512) :
    blockOut x0 x1 rows (ix3 r p q) = ∑ k : Fin 272, x1 (ix3 (rows r) p k) * x0 (ix3 r k q) := rfl

/-- A unit-stride slab `[r, 0, 0] + [1, a, b]` of an [n, a, b] array, at (u, p, q), is the array's entry (r, p, q). -/
theorem slab_idx {n a b : ℕ} (r : Fin n) (off : Fin 3 → Nat) (hoff : off = ![r.val, 0, 0])
    (inb : ∀ d, off d + (![1, a, b] : Fin 3 → Nat) d ≤ (⟨3, ![n, a, b]⟩ : Shape).size d) (u : Fin 1) (p : Fin a) (q : Fin b) :
    (Rect.unit (s := (⟨3, ![n, a, b]⟩ : Shape)) off ![1, a, b] inb).idx (ix3 u p q) = ix3 r p q := by
  subst hoff
  funext d
  refine Fin.ext ?_
  match d with
  | ⟨0, _⟩ => show r.val + 1 * u.val = r.val; omega
  | ⟨1, _⟩ => show 0 + 1 * p.val = p.val; omega
  | ⟨2, _⟩ => show 0 + 1 * q.val = q.val; omega

/-- Sub-row `r` as a piece of the block: its product, computed from slab `r` of the input block and slab `rows r`
    of the table, is the block's function on the piece's rectangle. -/
theorem subrow_block (x0 : Vec Ideal S8x272x512 .f32) (x1 : Vec Ideal S8x320x272 .bf16) (rows : Fin 8 → Fin 8) (r : Fin 8)
    (offO : Fin 3 → Nat) (hO : offO = ![r.val, 0, 0]) (inbO : ∀ a, offO a + (![1, 320, 512] : Fin 3 → Nat) a ≤ S8x320x512.size a)
    (offA : Fin 3 → Nat) (hA : offA = ![r.val, 0, 0]) (inbA : ∀ a, offA a + (![1, 272, 512] : Fin 3 → Nat) a ≤ S8x272x512.size a)
    (offB : Fin 3 → Nat) (hB : offB = ![(rows r).val, 0, 0]) (inbB : ∀ a, offB a + (![1, 320, 272] : Fin 3 → Nat) a ≤ S8x320x272.size a)
    (A : Vec Ideal S1x272x512 .f32) (hAv : A = View.ld x0 (Rect.unit (s := S8x272x512) offA ![1, 272, 512] inbA))
    (B : Vec Ideal S1x320x272 .bf16) (hBv : B = View.ld x1 (Rect.unit (s := S8x320x272) offB ![1, 320, 272] inbB))
    (x : S1x320x512.Idx) :
    k0_pay2 (F := Ideal) A B x = blockOut x0 x1 rows ((Rect.unit (s := S8x320x512) offO ![1, 320, 512] inbO).emb x) := by
  subst hAv hBv
  obtain ⟨u, p, q, rfl⟩ : ∃ (u : Fin 1) (p : Fin 320) (q : Fin 512), x = ix3 u p q := ⟨x 0, x 1, x 2, eq_ix3 x⟩
  rw [subrow_apply]
  rw [show (Rect.unit (s := S8x320x512) offO ![1, 320, 512] inbO).emb (ix3 u p q) = ix3 r p q from slab_idx r offO hO inbO u p q,
    blockOut_apply]
  refine Finset.sum_congr rfl fun k _ => ?_
  show x1 ((Rect.unit (s := S8x320x272) offB ![1, 320, 272] inbB).idx (ix3 (0 : Fin 1) p k))
      * x0 ((Rect.unit (s := S8x272x512) offA ![1, 272, 512] inbA).idx (ix3 (0 : Fin 1) k q)) = _
  rw [slab_idx (rows r) offB hB inbB 0 p k, slab_idx r offA hA inbA 0 k q]

/-- THE BLOCK. On whole staging buffers holding the input block `x0` and the table `x1`, with the subject words of
    the point naming the table rows `rows`, the body leaves `blockOut x0 x1 rows` in the output block: the eight
    stores tile the block, and each is the block's function on its rectangle. -/
theorem block_eq (c : Dev nD) (i : grid0.Coords) (arg2 : Memref sig .tc .vmem S8x272x512 .f32) (harg2 : arg2.IsWhole) (arg3 : Memref sig .tc .vmem S8x320x272 .bf16) (harg3 : arg3.IsWhole) (arg4 : Memref sig .tc .vmem S8x320x512 .f32) (harg4 : arg4.IsWhole)
    (x0 : Vec Ideal S8x272x512 .f32) (x1 : Vec Ideal S8x320x272 .bf16) (xt0 : TbBuf0 (F := Ideal) c tbM0_0) (k0_hw1 : k0_chk1 (tbM0_0.view.readAt (Elt Ideal) (Rect.unit (s := S128) (k0_off1 i) S1.size (k0_off1_inb i)).toLoadRect xt0 (Shape.Idx.first (numel1_S1.symm ▸ Nat.one_pos)))) (k0_hw2 : k0_chk2 (tbM0_0.view.readAt (Elt Ideal) (Rect.unit (s := S128) (k0_off3 i) S1.size (k0_off3_inb i)).toLoadRect xt0 (Shape.Idx.first (numel1_S1.symm ▸ Nat.one_pos)))) (k0_hw3 : k0_chk3 (tbM0_0.view.readAt (Elt Ideal) (Rect.unit (s := S128) (k0_off5 i) S1.size (k0_off5_inb i)).toLoadRect xt0 (Shape.Idx.first (numel1_S1.symm ▸ Nat.one_pos)))) (k0_hw4 : k0_chk4 (tbM0_0.view.readAt (Elt Ideal) (Rect.unit (s := S128) (k0_off7 i) S1.size (k0_off7_inb i)).toLoadRect xt0 (Shape.Idx.first (numel1_S1.symm ▸ Nat.one_pos)))) (k0_hw5 : k0_chk5 (tbM0_0.view.readAt (Elt Ideal) (Rect.unit (s := S128) (k0_off9 i) S1.size (k0_off9_inb i)).toLoadRect xt0 (Shape.Idx.first (numel1_S1.symm ▸ Nat.one_pos)))) (k0_hw6 : k0_chk6 (tbM0_0.view.readAt (Elt Ideal) (Rect.unit (s := S128) (k0_off11 i) S1.size (k0_off11_inb i)).toLoadRect xt0 (Shape.Idx.first (numel1_S1.symm ▸ Nat.one_pos)))) (k0_hw7 : k0_chk7 (tbM0_0.view.readAt (Elt Ideal) (Rect.unit (s := S128) (k0_off13 i) S1.size (k0_off13_inb i)).toLoadRect xt0 (Shape.Idx.first (numel1_S1.symm ▸ Nat.one_pos)))) (k0_hw8 : k0_chk8 (tbM0_0.view.readAt (Elt Ideal) (Rect.unit (s := S128) (k0_off15 i) S1.size (k0_off15_inb i)).toLoadRect xt0 (Shape.Idx.first (numel1_S1.symm ▸ Nat.one_pos)))) (rows : Fin 8 → Fin 8)
    (e0 : (tbM0_0.view.readAt (Elt Ideal) (Rect.unit (s := S128) (k0_off1 i) S1.size (k0_off1_inb i)).toLoadRect xt0 (Shape.Idx.first (numel1_S1.symm ▸ Nat.one_pos))).toNat = (rows 0).val)
    (e1 : (tbM0_0.view.readAt (Elt Ideal) (Rect.unit (s := S128) (k0_off3 i) S1.size (k0_off3_inb i)).toLoadRect xt0 (Shape.Idx.first (numel1_S1.symm ▸ Nat.one_pos))).toNat = (rows 1).val)
    (e2 : (tbM0_0.view.readAt (Elt Ideal) (Rect.unit (s := S128) (k0_off5 i) S1.size (k0_off5_inb i)).toLoadRect xt0 (Shape.Idx.first (numel1_S1.symm ▸ Nat.one_pos))).toNat = (rows 2).val)
    (e3 : (tbM0_0.view.readAt (Elt Ideal) (Rect.unit (s := S128) (k0_off7 i) S1.size (k0_off7_inb i)).toLoadRect xt0 (Shape.Idx.first (numel1_S1.symm ▸ Nat.one_pos))).toNat = (rows 3).val)
    (e4 : (tbM0_0.view.readAt (Elt Ideal) (Rect.unit (s := S128) (k0_off9 i) S1.size (k0_off9_inb i)).toLoadRect xt0 (Shape.Idx.first (numel1_S1.symm ▸ Nat.one_pos))).toNat = (rows 4).val)
    (e5 : (tbM0_0.view.readAt (Elt Ideal) (Rect.unit (s := S128) (k0_off11 i) S1.size (k0_off11_inb i)).toLoadRect xt0 (Shape.Idx.first (numel1_S1.symm ▸ Nat.one_pos))).toNat = (rows 5).val)
    (e6 : (tbM0_0.view.readAt (Elt Ideal) (Rect.unit (s := S128) (k0_off13 i) S1.size (k0_off13_inb i)).toLoadRect xt0 (Shape.Idx.first (numel1_S1.symm ▸ Nat.one_pos))).toNat = (rows 6).val)
    (e7 : (tbM0_0.view.readAt (Elt Ideal) (Rect.unit (s := S128) (k0_off15 i) S1.size (k0_off15_inb i)).toLoadRect xt0 (Shape.Idx.first (numel1_S1.symm ▸ Nat.one_pos))).toNat = (rows 7).val) :
    out0_A_2 (F := Ideal) c i arg2 harg2 arg3 harg3 arg4 harg4 x0 x1 xt0 k0_hw1 k0_hw2 k0_hw3 k0_hw4 k0_hw5 k0_hw6 k0_hw7 k0_hw8 = blockOut x0 x1 rows := by
  unfold out0_A_2
  rw [View.read_writes_eq_canon _ _ _ (cover0_A_2 c i arg2 harg2 arg3 harg3 arg4 harg4 x0 x1 xt0 k0_hw1 k0_hw2 k0_hw3 k0_hw4 k0_hw5 k0_hw6 k0_hw7 k0_hw8)]
  funext y
  refine View.canon_apply_of_pieces (blockOut x0 x1 rows) _ ?_ y (cover0_A_2 c i arg2 harg2 arg3 harg3 arg4 harg4 x0 x1 xt0 k0_hw1 k0_hw2 k0_hw3 k0_hw4 k0_hw5 k0_hw6 k0_hw7 k0_hw8 y)
  unfold kernelRun0_A
  dsimp only
  sl_unfold_words
  intro pc hpc x
  simp only [List.mem_cons, List.mem_nil_iff, or_false] at hpc
  rcases hpc with rfl | rfl | rfl | rfl | rfl | rfl | rfl | rfl
  · -- sub-row 7
    revert x; dsimp only; intro x
    rw [subrow1_eq]
    exact subrow_block x0 x1 rows 7 _ rfl _ _ rfl _ _ (congrArg (fun n => (![n, 0, 0] : Fin 3 → Nat)) e7) _
      _ (congrArg (fun X => View.ld X _) (harg2.read_unread x0)) _ (congrArg (fun X => View.ld X _) (harg3.read_unread x1)) x
  · -- sub-row 6
    revert x; dsimp only; intro x
    rw [subrow10_eq]
    exact subrow_block x0 x1 rows 6 _ rfl _ _ rfl _ _ (congrArg (fun n => (![n, 0, 0] : Fin 3 → Nat)) e6) _
      _ (congrArg (fun X => View.ld X _) (harg2.read_unread x0)) _ (congrArg (fun X => View.ld X _) (harg3.read_unread x1)) x
  · -- sub-row 5
    revert x; dsimp only; intro x
    rw [subrow9_eq]
    exact subrow_block x0 x1 rows 5 _ rfl _ _ rfl _ _ (congrArg (fun n => (![n, 0, 0] : Fin 3 → Nat)) e5) _
      _ (congrArg (fun X => View.ld X _) (harg2.read_unread x0)) _ (congrArg (fun X => View.ld X _) (harg3.read_unread x1)) x
  · -- sub-row 4
    revert x; dsimp only; intro x
    rw [subrow8_eq]
    exact subrow_block x0 x1 rows 4 _ rfl _ _ rfl _ _ (congrArg (fun n => (![n, 0, 0] : Fin 3 → Nat)) e4) _
      _ (congrArg (fun X => View.ld X _) (harg2.read_unread x0)) _ (congrArg (fun X => View.ld X _) (harg3.read_unread x1)) x
  · -- sub-row 3
    revert x; dsimp only; intro x
    rw [subrow5_eq]
    exact subrow_block x0 x1 rows 3 _ rfl _ _ rfl _ _ (congrArg (fun n => (![n, 0, 0] : Fin 3 → Nat)) e3) _
      _ (congrArg (fun X => View.ld X _) (harg2.read_unread x0)) _ (congrArg (fun X => View.ld X _) (harg3.read_unread x1)) x
  · -- sub-row 2
    revert x; dsimp only; intro x
    rw [subrow4_eq]
    exact subrow_block x0 x1 rows 2 _ rfl _ _ rfl _ _ (congrArg (fun n => (![n, 0, 0] : Fin 3 → Nat)) e2) _
      _ (congrArg (fun X => View.ld X _) (harg2.read_unread x0)) _ (congrArg (fun X => View.ld X _) (harg3.read_unread x1)) x
  · -- sub-row 1
    revert x; dsimp only; intro x
    rw [subrow3_eq]
    exact subrow_block x0 x1 rows 1 _ rfl _ _ rfl _ _ (congrArg (fun n => (![n, 0, 0] : Fin 3 → Nat)) e1) _
      _ (congrArg (fun X => View.ld X _) (harg2.read_unread x0)) _ (congrArg (fun X => View.ld X _) (harg3.read_unread x1)) x
  · -- sub-row 0
    revert x; dsimp only; intro x
    exact subrow_block x0 x1 rows 0 _ rfl _ _ rfl _ _ (congrArg (fun n => (![n, 0, 0] : Fin 3 → Nat)) e0) _
      _ (congrArg (fun X => View.ld X _) (harg2.read_unread x0)) _ (congrArg (fun X => View.ld X _) (harg3.read_unread x1)) x

end Cert.KernelIdeal.BlockValue

end
-- ==== Proof.SubjectConv.lean ====
/-
  THE SPECIFICATION both programs meet: a per-sample 1×1 convolution whose weight matrix is picked by the sample's
  subject id. For a batch of 128 samples `X : [128, 272, 512]` (channels × time), subject ids `s : [128]` and a
  table of 8 weight matrices `W : [8, 320, 272]`,

      out (b, d, t) = ∑ c, W (row s b, d, c) · X (b, c, t),

  where `row s b` is sample `b`'s subject id clipped into the table, `min 7 (max 0 (s b))` — on a label in range
  the label itself. The sum is over the extended reals; only its terms matter here, never a law that needs finiteness.
-/
import Idealize.ShloMosaic.PureOps.Ideal
import Idealize.ShloMosaic.Lib.ValueIdx
import proofs.«414298_j21586505630381_3_alg».proof.Proof.SubjectWord

noncomputable section

namespace Cert.SubjectConv

open Idealize.ShloMosaic Idealize.ShloMosaic.ValueIdx

/-- The table row sample `b` uses: its subject id clipped to [0, 7]. -/
def row (s : IVec (⟨1, ![128]⟩ : Shape) 32) (b : Fin 128) : Fin 8 :=
  ⟨(IntOp.minsi 7#32 (IntOp.maxsi 0#32 (s (ix1 b)))).toNat, SubjectWord.clip_toNat_lt _⟩

/-- On a label in range the row is the label. -/
theorem row_val_of_lt (s : IVec (⟨1, ![128]⟩ : Shape) 32) (b : Fin 128) (h : (s (ix1 b)).toNat < 8) :
    (row s b).val = (s (ix1 b)).toNat := by
  show (IntOp.minsi 7#32 (IntOp.maxsi 0#32 (s (ix1 b)))).toNat = _
  rw [SubjectWord.clip_eq_self _ h]

/-- The per-sample convolution with the subject's weights. -/
def conv (X : (⟨3, ![128, 272, 512]⟩ : Shape).Idx → EReal) (s : IVec (⟨1, ![128]⟩ : Shape) 32)
    (W : (⟨3, ![8, 320, 272]⟩ : Shape).Idx → EReal) : (⟨3, ![128, 320, 512]⟩ : Shape).Idx → EReal :=
  fun i => ∑ k : Fin 272, W (ix3 (row s (i 0)) (i 1) k) * X (ix3 (i 0) k (i 2))

theorem conv_apply (X : (⟨3, ![128, 272, 512]⟩ : Shape).Idx → EReal) (s : IVec (⟨1, ![128]⟩ : Shape) 32)
    (W : (⟨3, ![8, 320, 272]⟩ : Shape).Idx → EReal) (b : Fin 128) (d : Fin 320) (t : Fin 512) :
    conv X s W (ix3 b d t) = ∑ k : Fin 272, W (ix3 (row s b) d k) * X (ix3 b k t) := rfl

end Cert.SubjectConv

end
-- ==== Proof.KernelValue.lean ====
import proofs.«414298_j21586505630381_3_alg».proof.Proof.Gen.KernelIdeal.Frame
import proofs.«414298_j21586505630381_3_alg».proof.Proof.BlockValue
import proofs.«414298_j21586505630381_3_alg».proof.Proof.HostSide
import proofs.«414298_j21586505630381_3_alg».proof.Proof.SubjectConv
import Idealize.ShloMosaic.Lib.Pipeline.Value

set_option maxRecDepth 16384

noncomputable section

namespace Cert.KernelIdeal.KernelValue

open Cert.KernelIdeal Cert.KernelIdeal.Gen Cert.KernelIdeal.BlockValue Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The grid: 16 points, point `t` owning samples `8 t … 8 t + 7` -/

/-- The printed index maps and subject-word offsets, decided over the 16 points: the input and the output move
    one block of 8 samples per point, the weight table stays put, and sub-row `r` of point `t` reads subject
    word `8 t + r`. -/
theorem grid_facts : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = 0 ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ k0_off1 (grid0.coords t) 0 = 8 * t.val + 0
    ∧ k0_off3 (grid0.coords t) 0 = 8 * t.val + 1
    ∧ k0_off5 (grid0.coords t) 0 = 8 * t.val + 2
    ∧ k0_off7 (grid0.coords t) 0 = 8 * t.val + 3
    ∧ k0_off9 (grid0.coords t) 0 = 8 * t.val + 4
    ∧ k0_off11 (grid0.coords t) 0 = 8 * t.val + 5
    ∧ k0_off13 (grid0.coords t) 0 = 8 * t.val + 6
    ∧ k0_off15 (grid0.coords t) 0 = 8 * t.val + 7 := by
  decide +kernel

theorem N_eq (a : (pcfg0 (F := Ideal)).Adm) : (cfg0 a).N = 16 := N_0

/-! ## The subject words a point reads -/

/-- The table row sub-row `r` of point `t` uses: the clipped subject id of sample `8 t + r`. -/
def rows (c : Dev nD) (t : Fin grid0.N) (r : Fin 8) : Fin 8 :=
  Cert.SubjectConv.row (m ((c : Thread nD τ).loc main_arg1))
    ⟨8 * t.val + r.val, by have h1 := t.isLt; have h2 : grid0.N = 16 := N_0; have h3 := r.isLt; omega⟩

/-- The one index of a [1] rectangle at offset `n` of the [128] table is index `n`. -/
theorem word_idx (n : Fin 128) (off : Fin 1 → Nat) (hoff : off 0 = n.val) (inb : ∀ a, off a + S1.size a ≤ S128.size a)
    (h1 : 0 < S1.numel) : (Rect.unit (s := S128) off S1.size inb).idx (Shape.Idx.first h1) = ix1 n := by
  funext a
  apply Fin.ext
  match a with
  | ⟨0, _⟩ =>
    show off 0 + 1 * (Shape.Idx.first h1 (0 : Fin 1)).val = n.val
    have h0 : (Shape.Idx.first h1 (0 : Fin 1)).val = 0 := by
      have := (Shape.Idx.first h1 (0 : Fin 1)).isLt
      have e : S1.size (0 : Fin 1) = 1 := by decide
      omega
    rw [h0, hoff]; omega

/-- The word sub-row `r` of point `t` reads off the prefetched table, read unsigned, is the row `rows c t r`: the
    table holds the clipped ids, and the word sits at position `8 t + r`. -/
theorem word_toNat (c : Dev nD) (t : Fin grid0.N) (r : Fin 8) (off : Fin 1 → Nat) (hoff : off 0 = 8 * t.val + r.val)
    (inb : ∀ a, off a + S1.size a ≤ S128.size a) (h1 : 0 < S1.numel) :
    (tbM0_0.view.readAt (Elt Ideal) (Rect.unit (s := S128) off S1.size inb).toLoadRect (tbl m 0) (Shape.Idx.first h1)).toNat
      = (rows m c t r).val := by
  obtain rfl : c = 0 := Subsingleton.elim _ _
  have hlt : 8 * t.val + r.val < 128 := by have h1 := t.isLt; have h2 : grid0.N = 16 := N_0; have h3 := r.isLt; omega
  show (tbl m 0 ((Rect.unit (s := S128) off S1.size inb).idx (Shape.Idx.first h1))).toNat = _
  rw [word_idx ⟨8 * t.val + r.val, hlt⟩ off hoff inb h1, tbl_apply]
  rfl

/-! ## The blocks a point is handed -/

/-- The input block and the weight block of point `t`, at their literal shapes. -/
abbrev xblk (hO : Ok m) (c : Dev nD) (t : Fin (cfgM m hO).N) : Vec Ideal S8x272x512 .f32 := iblk m hO c 0 t
abbrev wblk (hO : Ok m) (c : Dev nD) (t : Fin (cfgM m hO).N) : Vec Ideal S8x320x272 .bf16 := iblk m hO c 1 t

/-- The input block of point `t`, at (r, k, q): the input at sample `8 t + r`. -/
theorem input_block (hO : Ok m) (c : Dev nD) (t : Fin (cfgM m hO).N) (r : Fin 8) (k : Fin 272) (q : Fin 512)
    (b : Fin 128) (hb : b.val = 8 * t.val + r.val) :
    xblk m hO c t (ix3 r k q) = (m ((c : Thread nD τ).loc main_arg0) : S128x272x512.Idx → EReal) (ix3 b k q) := by
  obtain ⟨⟨e0, e1, e2⟩, -⟩ := grid_facts t
  show V m c main_arg0 ((((cfgM m hO).win 0).blk t).view.emb (ix3 r k q)) = _
  refine (congrFun (V_main_arg0 m c) _).trans (congrArg _ (funext fun a => Fin.ext ?_))
  match a with
  | ⟨0, _⟩ => show cc0_transform_0 (grid0.coords t) 0 * 8 + 1 * r.val = b.val; rw [e0, hb]; omega
  | ⟨1, _⟩ => show cc0_transform_0 (grid0.coords t) 1 * 272 + 1 * k.val = k.val; rw [e1]; omega
  | ⟨2, _⟩ => show cc0_transform_0 (grid0.coords t) 2 * 512 + 1 * q.val = q.val; rw [e2]; omega

/-- The weight block of every point is the whole table: the argument's weights (narrowed to bf16 on the way in, the
    identity on extended reals). -/
theorem weight_block (hO : Ok m) (c : Dev nD) (t : Fin (cfgM m hO).N) (j : Fin 8) (p : Fin 320) (k : Fin 272) :
    wblk m hO c t (ix3 j p k) = (m ((c : Thread nD τ).loc main_arg2) : S8x320x272.Idx → EReal) (ix3 j p k) := by
  obtain ⟨-, ⟨e0, e1, e2⟩, -⟩ := grid_facts t
  show V m c main_v1 ((((cfgM m hO).win 1).blk t).view.emb (ix3 j p k)) = _
  refine (congrFun (weights_eq m c) _).trans ?_
  show (m ((c : Thread nD τ).loc main_arg2) : S8x320x272.Idx → EReal) _ = _
  refine congrArg _ (funext fun a => Fin.ext ?_)
  match a with
  | ⟨0, _⟩ => show cc0_transform_1 (grid0.coords t) 0 * 8 + 1 * j.val = j.val; rw [e0]; omega
  | ⟨1, _⟩ => show cc0_transform_1 (grid0.coords t) 1 * 320 + 1 * p.val = p.val; rw [e1]; omega
  | ⟨2, _⟩ => show cc0_transform_1 (grid0.coords t) 2 * 272 + 1 * k.val = k.val; rw [e2]; omega

/-! ## What a point writes back, and the array after the run -/

/-- The specification at the launch memory's arguments on core `c`. -/
abbrev result (c : Dev nD) : S128x320x512.Idx → EReal :=
  Cert.SubjectConv.conv (m ((c : Thread nD τ).loc main_arg0)) (m ((c : Thread nD τ).loc main_arg1)) (m ((c : Thread nD τ).loc main_arg2))

/-- The output block of point `t` sits at samples `8 t … 8 t + 7` of the result array. -/
theorem output_emb (hO : Ok m) (t : Fin (cfgM m hO).N) (r : Fin 8) (p : Fin 320) (q : Fin 512) (b : Fin 128)
    (hb : b.val = 8 * t.val + r.val) :
    (((cfgM m hO).win 2).blk t).view.emb (ix3 r p q : S8x320x512.Idx) = (ix3 b p q : S128x320x512.Idx) := by
  obtain ⟨-, -, ⟨e0, e1, e2⟩, -⟩ := grid_facts t
  refine funext fun a => Fin.ext ?_
  match a with
  | ⟨0, _⟩ => show cc0_transform_2 (grid0.coords t) 0 * 8 + 1 * r.val = b.val; rw [e0, hb]; omega
  | ⟨1, _⟩ => show cc0_transform_2 (grid0.coords t) 1 * 320 + 1 * p.val = p.val; rw [e1]; omega
  | ⟨2, _⟩ => show cc0_transform_2 (grid0.coords t) 2 * 512 + 1 * q.val = q.val; rw [e2]; omega

/-- The block the body leaves at point `t`, index by index, is the specification at the index's place in the result
    array: sub-row `r` multiplies the weights of sample `8 t + r`'s subject with that sample's input. -/
theorem block_is_spec (hO : Ok m) (c : Dev nD) (t : Fin (cfgM m hO).N) (y : S8x320x512.Idx) :
    blockOut (xblk m hO c t) (wblk m hO c t) (rows m c t) y = result m c ((((cfgM m hO).win 2).blk t).view.emb y) := by
  obtain ⟨r, p, q, rfl⟩ : ∃ (r : Fin 8) (p : Fin 320) (q : Fin 512), y = ix3 r p q := ⟨y 0, y 1, y 2, eq_ix3 y⟩
  have hlt : 8 * t.val + r.val < 128 := by
    have h1 := t.isLt; have h2 : (cfgM m hO).N = 16 := N_0; have h3 := r.isLt; omega
  rw [output_emb m hO t r p q ⟨8 * t.val + r.val, hlt⟩ rfl, blockOut_apply]
  show _ = ∑ k : Fin 272, _
  refine Finset.sum_congr rfl fun k _ => ?_
  rw [weight_block m hO c t _ p k, input_block m hO c t r k q ⟨8 * t.val + r.val, hlt⟩ rfl]
  rfl

/-- WHAT POINT `t` WRITES BACK is block `t` of the specification. -/
theorem flushed_eq (hO : Ok m) (hH : Hyps m hO) (c : Dev nD) (t : Fin (cfgM m hO).N) :
    (dats m hO hH 0 c).flushed 2 t = (((cfgM m hO).win 2).blk t).view.read (Elt Ideal) (result m c) := by
  show ((cfgM m hO).win 2).cut (grid0.coords t) ((dats m hO hH 0 c).after 2 t) = _
  rw [after0_2]
  unfold outsAt0
  rw [block_eq c (grid0.coords t) _ _ _ _ _ _ (iblk m hO c 0 t) (iblk m hO c 1 t) (tbl m 0) _ _ _ _ _ _ _ _ (rows m c t)
      (word_toNat m c t 0 _ (grid_facts t).2.2.2.1 _ _)
      (word_toNat m c t 1 _ (grid_facts t).2.2.2.2.1 _ _)
      (word_toNat m c t 2 _ (grid_facts t).2.2.2.2.2.1 _ _)
      (word_toNat m c t 3 _ (grid_facts t).2.2.2.2.2.2.1 _ _)
      (word_toNat m c t 4 _ (grid_facts t).2.2.2.2.2.2.2.1 _ _)
      (word_toNat m c t 5 _ (grid_facts t).2.2.2.2.2.2.2.2.1 _ _)
      (word_toNat m c t 6 _ (grid_facts t).2.2.2.2.2.2.2.2.2.1 _ _)
      (word_toNat m c t 7 _ (grid_facts t).2.2.2.2.2.2.2.2.2.2 _ _)]
  exact funext fun y => block_is_spec m hO c t y

/-- An index of the result array is in point `t`'s block iff each coordinate is in the block's range on its axis. -/
theorem mem_block (hO : Ok m) (t : Fin (cfgM m hO).N) (i : S128x320x512.Idx) :
    i ∈ (((cfgM m hO).win 2).blk t).view.set ↔ ∀ a : Fin 3, cc0_transform_2 (grid0.coords t) a * S8x320x512.size a ≤ (i a).val
      ∧ (i a).val < cc0_transform_2 (grid0.coords t) a * S8x320x512.size a + S8x320x512.size a := by
  show i ∈ ((View.whole main_v2).slice (((cfgM m hO).win 2).rect t)).set ↔ _
  refine (Eq.to_iff (congrArg (fun S : Finset S128x320x512.Idx => i ∈ S)
    (View.set_slice_whole main_v2 (((cfgM m hO).win 2).rect t)))).trans ?_
  exact Rect.mem_set_unit

/-- Every index of the result array is in the block of the point that owns its sample. -/
theorem covered (hO : Ok m) (i : S128x320x512.Idx) :
    ∃ t : Fin (cfgM m hO).N, ((cfgM m hO).win 2).flush t = true ∧ i ∈ (((cfgM m hO).win 2).blk t).view.set := by
  have hi0 : (i 0).val < 128 := (i 0).isLt
  have hi1 : (i 1).val < 320 := (i 1).isLt
  have hi2 : (i 2).val < 512 := (i 2).isLt
  have hN : (cfgM m hO).N = 16 := N_0
  have ht : (i 0).val / 8 < (cfgM m hO).N := by omega
  refine ⟨⟨(i 0).val / 8, ht⟩, flush0_2 (adm m hO) _, ?_⟩
  obtain ⟨-, -, ⟨e0, e1, e2⟩, -⟩ := grid_facts ⟨(i 0).val / 8, ht⟩
  rw [mem_block]
  intro a
  match a with
  | ⟨0, _⟩ =>
    show cc0_transform_2 (grid0.coords ⟨(i 0).val / 8, ht⟩) 0 * 8 ≤ (i 0).val ∧ (i 0).val < cc0_transform_2 (grid0.coords ⟨(i 0).val / 8, ht⟩) 0 * 8 + 8
    rw [e0]; show (i 0).val / 8 * 8 ≤ (i 0).val ∧ (i 0).val < (i 0).val / 8 * 8 + 8; omega
  | ⟨1, _⟩ =>
    show cc0_transform_2 (grid0.coords ⟨(i 0).val / 8, ht⟩) 1 * 320 ≤ (i 1).val ∧ (i 1).val < cc0_transform_2 (grid0.coords ⟨(i 0).val / 8, ht⟩) 1 * 320 + 320
    rw [e1]; omega
  | ⟨2, _⟩ =>
    show cc0_transform_2 (grid0.coords ⟨(i 0).val / 8, ht⟩) 2 * 512 ≤ (i 2).val ∧ (i 2).val < cc0_transform_2 (grid0.coords ⟨(i 0).val / 8, ht⟩) 2 * 512 + 512
    rw [e2]; omega

/-- THE RESULT ARRAY after the run is the specification of the arguments. -/
theorem final (hO : Ok m) (hH : Hyps m hO) (c : Dev nD) : (dats m hO hH 0 c).arrAt 2 (cfgM m hO).N = result m c :=
  (dats m hO hH 0 c).arrAt_eq_of_cover 2 (result m c) (fun t _ => flushed_eq m hO hH c t) (covered m hO)

/-- THE KERNEL'S RUN, read: every weakly fair execution terminates with the result array at the specification of the
    arguments, and the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 2).trans (final m (ok m) (hyps m (ok m)) c),
      ((h c).1 0).trans (((dats m (ok m) (hyps m (ok m)) 0 c).arrAt_in 0 rfl _).trans ((A_eq m (ok m) (hyps m (ok m)) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m) (hyps m (ok m)))

end Cert.KernelIdeal.KernelValue

end
-- ==== Proof.RefValue.lean ====
/-
  THE REFERENCE computes the specification on labels in range. It wraps a negative subject id (`s + 8` when `s < 0`),
  lays the ids out as a [128, 1] column of start indices, gathers one [320, 272] weight matrix per sample out of the
  [8, 320, 272] table (the gather clamps the start index into the table), and contracts the gathered [128, 320, 272]
  weights with the [128, 272, 512] input over the channels, sample by sample. Read at (b, d, t):

      ∑ c, W (min (toNat (toInt (wrap (s b)))) 7, d, c) · X (b, c, t),

  and for `0 ≤ s b < 8` the wrap does nothing and the clamped row is `s b`: the specification's row.
-/
import proofs.«414298_j21586505630381_3_alg».proof.Proof.Gen.ReferenceIdeal.Read
import proofs.«414298_j21586505630381_3_alg».proof.Proof.SubjectConv
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

/-- The gather of one weight matrix per sample, read at (b, d, c): the table at the row sample `b`'s start index
    names — read signed and clamped into the table's 8 rows — and at (d, c) within that matrix. -/
theorem gather_apply (W : FVec Ideal S8x320x272 .f32) (idx : IVec S128x1 32) (b : Fin 128) (d : Fin 320) (c : Fin 272) :
    Host.gather gather_S8x320x272_S128x1_S128x320x272_12_0_n_n_0_1_1320272 W idx (ix3 b d c)
      = W (ix3 (⟨min (idx (ix2 b (0 : Fin 1))).toInt.toNat (8 - 1), by omega⟩ : Fin 8) d c) := by
  unfold Host.gather
  refine congrArg W (funext fun a => Fin.ext ?_)
  match a with
  | ⟨0, _⟩ =>
    -- the collapsed axis: the clamped start index, nothing added
    show gather_S8x320x272_S128x1_S128x320x272_12_0_n_n_0_1_1320272.start (ix3 b d c) idx 0 + gather_S8x320x272_S128x1_S128x320x272_12_0_n_n_0_1_1320272.batchCoord (ix3 b d c) 0 + gather_S8x320x272_S128x1_S128x320x272_12_0_n_n_0_1_1320272.offCoord (ix3 b d c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x320x272.rank) ∈ gather_S8x320x272_S128x1_S128x320x272_12_0_n_n_0_1_1320272.startIndexMap from List.mem_singleton.mpr rfl)]
    have hsi : gather_S8x320x272_S128x1_S128x320x272_12_0_n_n_0_1_1320272.siIdx (ix3 b d c) ⟨List.idxOf (0 : Fin S8x320x272.rank) gather_S8x320x272_S128x1_S128x320x272_12_0_n_n_0_1_1320272.startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    -- a kept axis: no start index, the result's own coordinate
    show gather_S8x320x272_S128x1_S128x320x272_12_0_n_n_0_1_1320272.start (ix3 b d c) idx 1 + gather_S8x320x272_S128x1_S128x320x272_12_0_n_n_0_1_1320272.batchCoord (ix3 b d c) 1 + gather_S8x320x272_S128x1_S128x320x272_12_0_n_n_0_1_1320272.offCoord (ix3 b d c) 1 = d.val
    rw [GatherDims.batchCoord_eq_zero _ _ _ List.not_mem_nil]
    unfold GatherDims.start GatherDims.offCoord
    rw [dif_neg (show ¬(1 : Fin S8x320x272.rank) ∈ gather_S8x320x272_S128x1_S128x320x272_12_0_n_n_0_1_1320272.startIndexMap by decide),
      dif_pos (show (1 : Fin S8x320x272.rank) ∈ gather_S8x320x272_S128x1_S128x320x272_12_0_n_n_0_1_1320272.sKept by decide)]
    simp only [Nat.add_zero, Nat.zero_add]
    rfl
  | ⟨2, _⟩ =>
    -- a kept axis: no start index, the result's own coordinate
    show gather_S8x320x272_S128x1_S128x320x272_12_0_n_n_0_1_1320272.start (ix3 b d c) idx 2 + gather_S8x320x272_S128x1_S128x320x272_12_0_n_n_0_1_1320272.batchCoord (ix3 b d c) 2 + gather_S8x320x272_S128x1_S128x320x272_12_0_n_n_0_1_1320272.offCoord (ix3 b d c) 2 = c.val
    rw [GatherDims.batchCoord_eq_zero _ _ _ List.not_mem_nil]
    unfold GatherDims.start GatherDims.offCoord
    rw [dif_neg (show ¬(2 : Fin S8x320x272.rank) ∈ gather_S8x320x272_S128x1_S128x320x272_12_0_n_n_0_1_1320272.startIndexMap by decide),
      dif_pos (show (2 : Fin S8x320x272.rank) ∈ gather_S8x320x272_S128x1_S128x320x272_12_0_n_n_0_1_1320272.sKept by decide)]
    simp only [Nat.add_zero, Nat.zero_add]
    rfl

/-- The reference's contraction reads its two operands at (b, d, c) and (b, c, t). -/
theorem lidx_eq (b : Fin 128) (d : Fin 320) (t : Fin 512) (k : Fin 272) : lidx_main_v7 (ix3 b d t) k = ix3 b d k :=
  funext fun a => Fin.ext (by match a with | ⟨0, _⟩ => rfl | ⟨1, _⟩ => rfl | ⟨2, _⟩ => rfl)
theorem ridx_eq (b : Fin 128) (d : Fin 320) (t : Fin 512) (k : Fin 272) : ridx_main_v7 (ix3 b d t) k = ix3 b k t :=
  funext fun a => Fin.ext (by match a with | ⟨0, _⟩ => rfl | ⟨1, _⟩ => rfl | ⟨2, _⟩ => rfl)

/-- Sample `b`'s start index in the [128, 1] column is its subject id, when the id is not negative: the wrap of
    negative ids leaves it alone. -/
theorem start_index (x1 : (⟨S128, .i32⟩ : BufTy).Contents (Elt Ideal)) (b : Fin 128) (h : (x1 (ix1 b)).toNat < 8) :
    val_main_v5 (F := Ideal) x1 (ix2 b (0 : Fin 1)) = x1 (ix1 b) := by
  rw [val_main_v5_apply]
  have e : idx_main_v5 (ix2 b (0 : Fin 1)) = ix1 b := funext fun a => Fin.ext (by match a with | ⟨0, _⟩ => rfl)
  rw [e, val_main_v4_apply, val_main_v1_apply, val_main_v3_apply, val_main_v0_apply, val_main_c_apply, val_main_v2_apply,
    val_main_c_0_apply]
  exact Cert.SubjectWord.wrap_eq_self _ h

/-- THE REFERENCE IS THE SPECIFICATION when every subject id is a label in range, `0 ≤ s b < 8`. -/
theorem ref_eq (x0 : (⟨S128x272x512, .f32⟩ : BufTy).Contents (Elt Ideal)) (x1 : (⟨S128, .i32⟩ : BufTy).Contents (Elt Ideal))
    (x2 : (⟨S8x320x272, .f32⟩ : BufTy).Contents (Elt Ideal)) (hs : ∀ b : Fin 128, (x1 (ix1 b)).toNat < 8) :
    val_main_v7 (F := Ideal) x0 x1 x2 = Cert.SubjectConv.conv x0 x1 x2 := by
  funext i
  obtain ⟨b, d, t, rfl⟩ : ∃ (b : Fin 128) (d : Fin 320) (t : Fin 512), i = ix3 b d t := ⟨i 0, i 1, i 2, eq_ix3 i⟩
  rw [val_main_v7_apply, Cert.SubjectConv.conv_apply]
  refine Finset.sum_congr rfl fun k _ => ?_
  rw [lidx_eq, ridx_eq]
  unfold val_main_v6
  rw [gather_apply]
  refine congrArg (· * x0 (ix3 b k t)) (congrArg x2 (congrArg (fun r : Fin 8 => ix3 r d k) (Fin.ext ?_)))
  show min (val_main_v5 (F := Ideal) x1 (ix2 b (0 : Fin 1))).toInt.toNat (8 - 1) = (Cert.SubjectConv.row x1 b).val
  rw [start_index x1 b (hs b), Cert.SubjectWord.clamp_row_eq _ (hs b), Cert.SubjectConv.row_val_of_lt _ _ (hs b)]

end Cert.ReferenceIdeal.RefValue

end
-- ==== Proof.LabelRange.lean ====
/-
  THE PRECONDITION, read for the subject ids. Beside the finiteness of the two float inputs it says that every
  subject id is a label of the 8-row weight table: `0 ≤ s b` and `s b < 8` as signed words, for all 128 samples
  (an `and` over the samples of the two comparisons). A word in that range is below 8 read unsigned.
-/
import proofs.«414298_j21586505630381_3_alg».proof.Pre_finite_inputs
import proofs.«414298_j21586505630381_3_alg».proof.Proof.SubjectWord
import Idealize.ShloMosaic.Lib.ReduceAll
import Idealize.ShloMosaic.Lib.Affine
import Idealize.ShloMosaic.Lib.ValueIdx

noncomputable section

namespace Cert.LabelRange

open Idealize.ShloMosaic Cert.Pre_finite_inputs

variable [Cert.Pre_finite_inputs.Facts]
variable {F : FTy → Type} [FloatOps F]

instance : Subsingleton S_.Idx := ⟨fun a b => funext fun d => d.elim0⟩

/-- Under the precondition every subject id, read unsigned, is below 8. -/
theorem labels_lt (X : FVec F S128x272x512 .f32) (s : IVec S128 32) (W : FVec F S8x320x272 .f32)
    (h : fn X s W = fun _ => 1#1) (i : S128.Idx) : (s i).toNat < 8 := by
  have e := congrFun h ValueIdx.ix0
  dsimp only [fn] at e
  have e' : IntOp.andi _ _ = 1#1 := e
  obtain ⟨-, e14⟩ := IntOp.andi_eq_one.1 e'
  have e13 := Host.reduce_andi_all _ _ _ _ _ e14 i
  have e13' : IntOp.andi _ _ = 1#1 := e13
  obtain ⟨h0, h8⟩ := IntOp.andi_eq_one.1 e13'
  exact Cert.SubjectWord.toNat_lt_of_range _ h0 h8

end Cert.LabelRange

end
-- ==== Proof.lean ====
/-
  A per-sample 1×1 convolution whose weights are picked by the sample's subject id:

      out (b, d, t) = ∑ c, W (s b, d, c) · X (b, c, t)      (128 samples, 320 × 272 weights per subject, 512 time steps).

  THE KERNEL clips the ids into the 8-row weight table on the host, `min 7 (max 0 s)`, prefetches them, and at each
  of 16 grid points multiplies, for each of the point's 8 samples, the weight matrix its clipped id names (a dynamic
  row of the table, resident in VMEM as bf16) with the sample's input on the matrix unit. THE REFERENCE wraps negative
  ids NumPy's way (`s + 8`), gathers one weight matrix per sample (the gather clamps the row into the table) and
  contracts over the channels.

  Over the extended reals a change of float format is the identity and a matrix product into a zero accumulator is
  the plain sum over the channels, so both programs compute the sum above with SOME row in place of `s b`: the
  kernel `clip (s b)`, the reference `clamp (wrap (s b))`. These differ exactly on `−7 ≤ s b ≤ −1` (at `−8` the wrap gives row 0, the clip's row too); on the label
  range `0 ≤ s b < 8`, which the precondition states, both are `s b`. No law that needs finiteness is used: the two
  sides are the same sum term by term.

  The frames: the body assumes, of each subject word it reads, that the word names a row of the table; the table
  holds CLIPPED ids, so that holds whatever the ids are (Proof/HostSide.lean, and its copy for the word-level
  program). The kernel's value (Proof/BlockValue.lean: the eight stores of a grid point as one function of the block;
  Proof/KernelValue.lean: the blocks tile the result array) and the reference's (Proof/RefValue.lean) meet in the
  specification Proof/SubjectConv.lean states.
-/
import proofs.«414298_j21586505630381_3_alg».proof.Defs
import proofs.«414298_j21586505630381_3_alg».proof.Proof.Gen.Kernel
import proofs.«414298_j21586505630381_3_alg».proof.Proof.Gen.Kernel.Skeleton
import proofs.«414298_j21586505630381_3_alg».proof.Proof.Gen.Kernel.Launch
import proofs.«414298_j21586505630381_3_alg».proof.Proof.Gen.Kernel.Points
import proofs.«414298_j21586505630381_3_alg».proof.Proof.Gen.Kernel.Frame
import proofs.«414298_j21586505630381_3_alg».proof.Proof.Gen.KernelIdeal
import proofs.«414298_j21586505630381_3_alg».proof.Proof.Gen.KernelIdeal.Skeleton
import proofs.«414298_j21586505630381_3_alg».proof.Proof.Gen.KernelIdeal.Launch
import proofs.«414298_j21586505630381_3_alg».proof.Proof.Gen.KernelIdeal.Points
import proofs.«414298_j21586505630381_3_alg».proof.Proof.Gen.KernelIdeal.Frame
import proofs.«414298_j21586505630381_3_alg».proof.Proof.Gen.ReferenceIdeal
import proofs.«414298_j21586505630381_3_alg».proof.Proof.Gen.ReferenceIdeal.Run
import proofs.«414298_j21586505630381_3_alg».proof.Proof.Gen.ReferenceIdeal.Read
import proofs.«414298_j21586505630381_3_alg».proof.Proof.Gen.Pre_finite_inputs
import proofs.«414298_j21586505630381_3_alg».proof.Proof.HostSide
import proofs.«414298_j21586505630381_3_alg».proof.Proof.HostSideKernel
import proofs.«414298_j21586505630381_3_alg».proof.Proof.KernelValue
import proofs.«414298_j21586505630381_3_alg».proof.Proof.RefValue
import proofs.«414298_j21586505630381_3_alg».proof.Proof.LabelRange
import Idealize.ShloMosaic.Adequacy
import Idealize.ShloMosaic.Init

noncomputable section

namespace Cert.Proof

open Idealize.ShloMosaic Idealize.ShloMosaic.ValueIdx Idealize.SL.Sem

/-- The word-level kernel runs and leaves its arguments alone: every subject word the body reads is a clipped id. -/
theorem frame_kernel : Cert.frame_Kernel := fun m ρ _ =>
  Cert.Kernel.Gen.frame m ρ (Cert.Kernel.HostSide.ok m) (Cert.Kernel.HostSide.hyps m _)

/-- So does its reading over the extended reals. -/
theorem frame_kernelIdeal : Cert.frame_KernelIdeal := fun m ρ _ =>
  Cert.KernelIdeal.Gen.frame m ρ (Cert.KernelIdeal.HostSide.ok m) (Cert.KernelIdeal.HostSide.hyps m _)

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Both programs end with the specification of the arguments in their result arrays: the kernel whatever the ids
    are (it clips them), the reference because the precondition puts every id in the label range. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2]
  exact Cert.ReferenceIdeal.RefValue.ref_eq _ _ _ fun b => Cert.LabelRange.labels_lt _ _ _ (hpre c) (ix1 b)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
